-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x28x28 : Shape := ⟨4, ![128, 256, 28, 28]⟩
abbrev S256x16 : Shape := ⟨2, ![256, 16]⟩
abbrev S16x256 : Shape := ⟨2, ![16, 256]⟩
abbrev S_ : Shape := ⟨0, ![]⟩

class Facts : Prop where
  bcast_S_S128x256x28x28 : S_.BroadcastsInDim S128x256x28x28 (![] : Fin 0 → Fin S128x256x28x28.rank)
  reducesTo_S128x256x28x28_S_d0_1_2_3 : S128x256x28x28.ReducesTo [0, 1, 2, 3] S_
  h_S_ : 0 < S_.numel
  bcast_S_S256x16 : S_.BroadcastsInDim S256x16 (![] : Fin 0 → Fin S256x16.rank)
  reducesTo_S256x16_S_d0_1 : S256x16.ReducesTo [0, 1] S_
  bcast_S_S16x256 : S_.BroadcastsInDim S16x256 (![] : Fin 0 → Fin S16x256.rank)
  reducesTo_S16x256_S_d0_1 : S16x256.ReducesTo [0, 1] S_

variable [Facts]

def fn {F : FTy → Type} [FloatOps F] (main_arg0 : FVec F S128x256x28x28 .f32) (main_arg1 : FVec F S256x16 .f32) (main_arg2 : FVec F S16x256 .f32) : IVec S_ 1 :=
  let main_v0 : FVec F S128x256x28x28 .f32 := Host.absf main_arg0
  let main_cst : FVec F S_ .f32 := constant S_ .f32 0x7F800000#32
  let main_v1 : FVec F S128x256x28x28 .f32 := broadcastInDim S128x256x28x28 ![] bcast_S_S128x256x28x28 main_cst
  let main_v2 : IVec S128x256x28x28 1 := cmpf .olt main_v0 main_v1
  let main_c : IVec S_ 1 := constantI S_ 1 1#1
  let main_v3 : IVec S_ 1 := (fun x v => Host.reduce IntOp.andi x v reducesTo_S128x256x28x28_S_d0_1_2_3 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16x256 .f32 := Host.absf main_arg2
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  main_v13
-- ==== Kernel.lean ====
abbrev S128x256x28x28 : Shape := ⟨4, ![128, 256, 28, 28]⟩
abbrev S256x16 : Shape := ⟨2, ![256, 16]⟩
abbrev S16x256 : Shape := ⟨2, ![16, 256]⟩
abbrev S128x256x784 : Shape := ⟨3, ![128, 256, 784]⟩
abbrev S8x256x784 : Shape := ⟨3, ![8, 256, 784]⟩
abbrev S8x256 : Shape := ⟨2, ![8, 256]⟩
abbrev S8x16 : Shape := ⟨2, ![8, 16]⟩
abbrev S8x256x1 : Shape := ⟨3, ![8, 256, 1]⟩

abbrev nBuf : Space → Nat
  | .hbm => 6
  | .vmem => 6
  | .smem => 0
  | _ => 0

abbrev bufTy : (tb : Table) → Fin (tcTables nBuf tb) → BufTy
  | .hbm, ⟨0, _⟩ => ⟨S128x256x28x28, .f32⟩
  | .hbm, ⟨1, _⟩ => ⟨S256x16, .f32⟩
  | .hbm, ⟨2, _⟩ => ⟨S16x256, .f32⟩
  | .hbm, ⟨3, _⟩ => ⟨S128x256x784, .f32⟩
  | .hbm, ⟨4, _⟩ => ⟨S128x256x784, .f32⟩
  | .hbm, ⟨5, _⟩ => ⟨S128x256x28x28, .f32⟩
  | .local _ .vmem, ⟨0, _⟩ => ⟨S8x256x784, .f32⟩
  | .local _ .vmem, ⟨1, _⟩ => ⟨S8x256x784, .f32⟩
  | .local _ .vmem, ⟨2, _⟩ => ⟨S256x16, .f32⟩
  | .local _ .vmem, ⟨3, _⟩ => ⟨S16x256, .f32⟩
  | .local _ .vmem, ⟨4, _⟩ => ⟨S8x256x784, .f32⟩
  | .local _ .vmem, ⟨5, _⟩ => ⟨S8x256x784, .f32⟩
  | _, _ => ⟨S128x256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256x784 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128x256x28x28_S128x256x784 : S128x256x28x28.ShapeCasts S128x256x784
  inb_S8x256x784_S8x256x784_0_0_0 : ∀ a, (![0, 0, 0] : Fin 3 → Nat) a + S8x256x784.size a ≤ S8x256x784.size a
  h_S8x256x784 : 0 < S8x256x784.numel
  shapeCasts_S8x256x784_S8x256x784 : S8x256x784.ShapeCasts S8x256x784
  reduces_S8x256x784_S8x256 : S8x256x784.Reduces [2] S8x256
  inb_S256x16_S256x16_0_0 : ∀ a, (![0, 0] : Fin 2 → Nat) a + S256x16.size a ≤ S256x16.size a
  h_S256x16 : 0 < S256x16.numel
  inb_S16x256_S16x256_0_0 : ∀ a, (![0, 0] : Fin 2 → Nat) a + S16x256.size a ≤ S16x256.size a
  h_S16x256 : 0 < S16x256.numel
  shapeCasts_S8x256_S8x256x1 : S8x256.ShapeCasts S8x256x1
  broadcasts_S8x256x1_S8x256x784 : S8x256x1.Broadcasts S8x256x784
  shapeCasts_S128x256x784_S128x256x28x28 : S128x256x784.ShapeCasts S128x256x28x28
  dot_S8x256_S256x16_S8x16_1_0_0_1_n_n_wf : DotDims.WF S8x256 S256x16 S8x16 [1] [0] [0] [1] [] []
  dot_S8x16_S16x256_S8x256_1_0_0_1_n_n_wf : DotDims.WF S8x16 S16x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x784.size a ≤ S128x256x784.size a
  hwx0_0 : ∀ i : grid0.Coords, EltTy.bits .f32 = 32 ∨ (Rect.block (s := S128x256x784) S8x256x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x784.size a ≤ S128x256x784.size a
  hwx0_3 : ∀ i : grid0.Coords, EltTy.bits .f32 = 32 ∨ (Rect.block (s := S128x256x784) S8x256x784.size (cc0_transform_3 i) (hinb0_3 i)).WholeWords (EltTy.packing .f32)

variable [Facts₀]

def dot_S8x256_S256x16_S8x16_1_0_0_1_n_n : DotDims S8x256 S256x16 S8x16 where
  lhsContracting := [1]
  rhsContracting := [0]
  lhsNonContracting := [0]
  rhsNonContracting := [1]
  lhsBatch := []
  rhsBatch := []
  wf := dot_S8x256_S256x16_S8x16_1_0_0_1_n_n_wf
def dot_S8x16_S16x256_S8x256_1_0_0_1_n_n : DotDims S8x16 S16x256 S8x256 where
  lhsContracting := [1]
  rhsContracting := [0]
  lhsNonContracting := [0]
  rhsNonContracting := [1]
  lhsBatch := []
  rhsBatch := []
  wf := dot_S8x16_S16x256_S8x256_1_0_0_1_n_n_wf

abbrev win0_0 : Pipeline.Window sig grid0 :=
  Pipeline.Window.ofSpec (Memref.whole main_v0) S8x256x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x256x784.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x256x28x28 : Shape := ⟨4, ![128, 256, 28, 28]⟩
abbrev S256x16 : Shape := ⟨2, ![256, 16]⟩
abbrev S16x256 : Shape := ⟨2, ![16, 256]⟩
abbrev S128x256x784 : Shape := ⟨3, ![128, 256, 784]⟩
abbrev S128x784x256 : Shape := ⟨3, ![128, 784, 256]⟩
abbrev S4x784x256 : Shape := ⟨3, ![4, 784, 256]⟩
abbrev S4x256 : Shape := ⟨2, ![4, 256]⟩
abbrev S4x16 : Shape := ⟨2, ![4, 16]⟩
abbrev S4x1x256 : Shape := ⟨3, ![4, 1, 256]⟩

abbrev nBuf : Space → Nat
  | .hbm => 8
  | .vmem => 6
  | .smem => 0
  | _ => 0

abbrev bufTy : (tb : Table) → Fin (tcTables nBuf tb) → BufTy
  | .hbm, ⟨0, _⟩ => ⟨S128x256x28x28, .f32⟩
  | .hbm, ⟨1, _⟩ => ⟨S256x16, .f32⟩
  | .hbm, ⟨2, _⟩ => ⟨S16x256, .f32⟩
  | .hbm, ⟨3, _⟩ => ⟨S128x256x784, .f32⟩
  | .hbm, ⟨4, _⟩ => ⟨S128x784x256, .f32⟩
  | .hbm, ⟨5, _⟩ => ⟨S128x784x256, .f32⟩
  | .hbm, ⟨6, _⟩ => ⟨S128x256x784, .f32⟩
  | .hbm, ⟨7, _⟩ => ⟨S128x256x28x28, .f32⟩
  | .local _ .vmem, ⟨0, _⟩ => ⟨S4x784x256, .f32⟩
  | .local _ .vmem, ⟨1, _⟩ => ⟨S4x784x256, .f32⟩
  | .local _ .vmem, ⟨2, _⟩ => ⟨S256x16, .f32⟩
  | .local _ .vmem, ⟨3, _⟩ => ⟨S16x256, .f32⟩
  | .local _ .vmem, ⟨4, _⟩ => ⟨S4x784x256, .f32⟩
  | .local _ .vmem, ⟨5, _⟩ => ⟨S4x784x256, .f32⟩
  | _, _ => ⟨S128x256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x784x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x784x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128x256x28x28_S128x256x784 : S128x256x28x28.ShapeCasts S128x256x784
  transposes_S128x256x784_S128x784x256_0_2_1 : S128x256x784.Transposes [0, 2, 1] S128x784x256
  inb_S4x784x256_S4x784x256_0_0_0 : ∀ a, (![0, 0, 0] : Fin 3 → Nat) a + S4x784x256.size a ≤ S4x784x256.size a
  h_S4x784x256 : 0 < S4x784x256.numel
  shapeCasts_S4x784x256_S4x784x256 : S4x784x256.ShapeCasts S4x784x256
  reduces_S4x784x256_S4x256 : S4x784x256.Reduces [1] S4x256
  inb_S256x16_S256x16_0_0 : ∀ a, (![0, 0] : Fin 2 → Nat) a + S256x16.size a ≤ S256x16.size a
  h_S256x16 : 0 < S256x16.numel
  inb_S16x256_S16x256_0_0 : ∀ a, (![0, 0] : Fin 2 → Nat) a + S16x256.size a ≤ S16x256.size a
  h_S16x256 : 0 < S16x256.numel
  shapeCasts_S4x256_S4x1x256 : S4x256.ShapeCasts S4x1x256
  broadcasts_S4x1x256_S4x784x256 : S4x1x256.Broadcasts S4x784x256
  transposes_S128x784x256_S128x256x784_0_2_1 : S128x784x256.Transposes [0, 2, 1] S128x256x784
  shapeCasts_S128x256x784_S128x256x28x28 : S128x256x784.ShapeCasts S128x256x28x28
  dot_S4x256_S256x16_S4x16_1_0_0_1_n_n_wf : DotDims.WF S4x256 S256x16 S4x16 [1] [0] [0] [1] [] []
  dot_S4x16_S16x256_S4x256_1_0_0_1_n_n_wf : DotDims.WF S4x16 S16x256 S4x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x784x256.size a ≤ S128x784x256.size a
  hwx0_0 : ∀ i : grid0.Coords, EltTy.bits .f32 = 32 ∨ (Rect.block (s := S128x784x256) S4x784x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x784x256.size a ≤ S128x784x256.size a
  hwx0_3 : ∀ i : grid0.Coords, EltTy.bits .f32 = 32 ∨ (Rect.block (s := S128x784x256) S4x784x256.size (cc0_transform_3 i) (hinb0_3 i)).WholeWords (EltTy.packing .f32)

variable [Facts₀]

def dot_S4x256_S256x16_S4x16_1_0_0_1_n_n : DotDims S4x256 S256x16 S4x16 where
  lhsContracting := [1]
  rhsContracting := [0]
  lhsNonContracting := [0]
  rhsNonContracting := [1]
  lhsBatch := []
  rhsBatch := []
  wf := dot_S4x256_S256x16_S4x16_1_0_0_1_n_n_wf
def dot_S4x16_S16x256_S4x256_1_0_0_1_n_n : DotDims S4x16 S16x256 S4x256 where
  lhsContracting := [1]
  rhsContracting := [0]
  lhsNonContracting := [0]
  rhsNonContracting := [1]
  lhsBatch := []
  rhsBatch := []
  wf := dot_S4x16_S16x256_S4x256_1_0_0_1_n_n_wf

abbrev win0_0 : Pipeline.Window sig grid0 :=
  Pipeline.Window.ofSpec (Memref.whole main_v1) S4x784x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x784x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibSqueezeExcite.lean ====
/-
  The squeeze-and-excitation gate over the extended reals, for any extents.

  For one sample with channels c and positions h, the gate of channel c is
      logistic ( Σ_j  max ( Σ_c' ((Σ_h X c' h) · κ) · W1 (c', j),  z ) · W2 (j, c) ),
  κ the mean's factor and z the rectifier's floor. The block scaled by its gates is written here for the two layouts of
  a batch, channels before positions and positions before channels; exchanging the two trailing axes before and after
  the second gives the first, because the gate's inner sum runs over the same positions either way.
  Below that, the vector operations such a block is built from, read at an index: a sum along the last or the middle
  axis of a rank-3 array, a rank-2 array given a trailing or a middle unit axis, and that unit axis laid out along the
  full axis; and the gate of a whole [B, C] array of per-channel sums as the two block products compute it.
-/
import Idealize.ShloMosaic.PureOps.Ideal.Laws
import Idealize.ShloMosaic.Lib.ValueIdx
import Idealize.ShloMosaic.Lib.ValueLayout
import Idealize.ShloMosaic.Lib.Pipeline.Value
import proofs.«145505_g2000206377233757_pallasbulk_214_2_alg».proof.Proof.LibDotSum

noncomputable section

open scoped BigOperators

namespace Cert.Lib

open Idealize.ShloMosaic Idealize.ShloMosaic.ValueIdx

variable {N B C H R : Nat}

/-! ## The gate and the scaled block, in both layouts -/

/-- The gate of channel `c` of one sample `X` (channel, position). -/
def seGate (κ z : EReal) (X : Fin C → Fin H → EReal) (W1 : FVec Ideal ⟨2, ![C, R]⟩ .f32) (W2 : FVec Ideal ⟨2, ![R, C]⟩ .f32)
    (c : Fin C) : EReal :=
  Ideal.logistic (∑ j : Fin R, max (∑ c' : Fin C, ((∑ h : Fin H, X c' h) * κ) * W1 (ix2 c' j)) z * W2 (ix2 j c))

/-- Every entry (n, c, h) of a batch scaled by its sample's gate of channel c: channels before positions. -/
def seNCH (κ z : EReal) (A : FVec Ideal ⟨3, ![N, C, H]⟩ .f32) (W1 : FVec Ideal ⟨2, ![C, R]⟩ .f32) (W2 : FVec Ideal ⟨2, ![R, C]⟩ .f32) :
    FVec Ideal ⟨3, ![N, C, H]⟩ .f32 :=
  fun i => A i * seGate κ z (fun c' h' => A (ix3 (i 0) c' h')) W1 W2 (i 1)

/-- The same with positions before channels: entry (n, h, c). -/
def seNHC (κ z : EReal) (A : FVec Ideal ⟨3, ![N, H, C]⟩ .f32) (W1 : FVec Ideal ⟨2, ![C, R]⟩ .f32) (W2 : FVec Ideal ⟨2, ![R, C]⟩ .f32) :
    FVec Ideal ⟨3, ![N, H, C]⟩ .f32 :=
  fun i => A i * seGate κ z (fun c' h' => A (ix3 (i 0) h' c')) W1 W2 (i 2)

theorem seNCH_apply (κ z : EReal) (A : FVec Ideal ⟨3, ![N, C, H]⟩ .f32) (W1 : FVec Ideal ⟨2, ![C, R]⟩ .f32)
    (W2 : FVec Ideal ⟨2, ![R, C]⟩ .f32) (n : Fin N) (c : Fin C) (h : Fin H) :
    seNCH κ z A W1 W2 (ix3 n c h) = A (ix3 n c h) * seGate κ z (fun c' h' => A (ix3 n c' h')) W1 W2 c := rfl

theorem seNHC_apply (κ z : EReal) (A : FVec Ideal ⟨3, ![N, H, C]⟩ .f32) (W1 : FVec Ideal ⟨2, ![C, R]⟩ .f32)
    (W2 : FVec Ideal ⟨2, ![R, C]⟩ .f32) (n : Fin N) (h : Fin H) (c : Fin C) :
    seNHC κ z A W1 W2 (ix3 n h c) = A (ix3 n h c) * seGate κ z (fun c' h' => A (ix3 n h' c')) W1 W2 c := rfl

/-- Exchange the two trailing axes, scale positions-before-channels, exchange back: the channels-before-positions
    scaling. Entry (n, c, h) of the left side is the transposed array's entry (n, h, c), which is A (n, c, h), times
    the gate of the sample whose (c', h') entry is again A (n, c', h'). -/
theorem transpose_seNHC_transpose (κ z : EReal) (A : FVec Ideal ⟨3, ![N, C, H]⟩ .f32) (W1 : FVec Ideal ⟨2, ![C, R]⟩ .f32)
    (W2 : FVec Ideal ⟨2, ![R, C]⟩ .f32)
    (h1 : (⟨3, ![N, C, H]⟩ : Shape).Transposes [0, 2, 1] ⟨3, ![N, H, C]⟩)
    (h2 : (⟨3, ![N, H, C]⟩ : Shape).Transposes [0, 2, 1] ⟨3, ![N, C, H]⟩) :
    transpose ⟨3, ![N, C, H]⟩ [0, 2, 1] (seNHC κ z (transpose ⟨3, ![N, H, C]⟩ [0, 2, 1] A h1) W1 W2) h2 = seNCH κ z A W1 W2 := by
  funext i
  obtain ⟨n, c, h, rfl⟩ : ∃ (n : Fin N) (c : Fin C) (h : Fin H), i = ix3 n c h := ⟨i 0, i 1, i 2, eq_ix3 i⟩
  have e : ∀ (c' : Fin C) (h' : Fin H), transpose ⟨3, ![N, H, C]⟩ [0, 2, 1] A h1 (ix3 n h' c') = A (ix3 n c' h') :=
    fun c' h' => transpose_ix3_021_apply A h1 n h' c'
  rw [transpose_ix3_021_apply, seNHC_apply, seNCH_apply, e c h]
  exact congrArg (fun X => A (ix3 n c h) * seGate κ z X W1 W2 c) (funext fun c' => funext fun h' => e c' h')

/-! ## The vector operations, read at an index -/

section Layout
variable {α : Type} {a b c : Nat}

/-- An [a, b] array given a trailing unit axis reads, at (p, q, u), the operand at (p, q). -/
theorem shapeCast_ab_ab1_apply (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An [a, b] array given a middle unit axis reads, at (p, u, q), the operand at (p, q). -/
theorem shapeCast_ab_a1b_apply (x : (⟨2, ![a, b]⟩ : Shape).Idx → α) (h : (⟨2, ![a, b]⟩ : Shape).ShapeCasts ⟨3, ![a, 1, b]⟩)
    (p : Fin a) (u : Fin 1) (q : Fin b) : shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An [a, b, 1] array laid out along a last axis of extent c reads, at (p, q, r), the operand at (p, q, 0). -/
theorem broadcastTo_ab1_abc_apply (v : (⟨3, ![a, b, 1]⟩ : Shape).Idx → α) (h : (⟨3, ![a, b, 1]⟩ : Shape).Broadcasts ⟨3, ![a, b, c]⟩)
    (p : Fin a) (q : Fin b) (r : Fin c) : broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An [a, 1, c] array laid out along a middle axis of extent b reads, at (p, q, r), the operand at (p, 0, r). -/
theorem broadcastTo_a1c_abc_apply (v : (⟨3, ![a, 1, c]⟩ : Shape).Idx → α) (h : (⟨3, ![a, 1, c]⟩ : Shape).Broadcasts ⟨3, ![a, b, c]⟩)
    (p : Fin a) (q : Fin b) (r : Fin c) : broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

end Layout

section Sums
variable {a b c : Nat} {φ : FTy}

/-- The sum of an [a, b, c] array along its last axis, at (p, q): the sum over r of the entries (p, q, r). -/
theorem sum_axis2_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  refine (Ideal.multiReduction_add_single src acc h hφ hacc (ix2 p q)).trans ?_
  refine Finset.sum_congr rfl fun r _ => congrArg src ?_
  funext ax
  match ax with
  | ⟨0, _⟩ => rfl
  | ⟨1, _⟩ => rfl
  | ⟨2, _⟩ => rfl

/-- The sum of an [a, b, c] array along its middle axis, at (p, r): the sum over q of the entries (p, q, r). -/
theorem sum_axis1_apply (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (r : Fin c) :
    multiReduction .add [1] ⟨2, ![a, c]⟩ src acc h hφ hacc (ix2 p r) = ∑ q : Fin b, src (ix3 p q r) := by
  refine (Ideal.multiReduction_add_single src acc h hφ hacc (ix2 p r)).trans ?_
  refine Finset.sum_congr rfl fun q _ => congrArg src ?_
  funext ax
  match ax with
  | ⟨0, _⟩ => rfl
  | ⟨1, _⟩ => rfl
  | ⟨2, _⟩ => rfl

end Sums

/-! ## The excitation of a [B, C] array of per-channel sums, as two block products compute it -/

/-- Scale by κ, multiply by W1, floor at z, multiply by W2, logistic: at (r, c) it is the gate's expression over row r. -/
theorem excite_apply (d1 : DotDims ⟨2, ![B, C]⟩ ⟨2, ![C, R]⟩ ⟨2, ![B, R]⟩)
    (h1lc : d1.lhsContracting = [1]) (h1rc : d1.rhsContracting = [0])
    (h1ln : d1.lhsNonContracting = [0]) (h1rn : d1.rhsNonContracting = [1])
    (h1lb : d1.lhsBatch = []) (h1rb : d1.rhsBatch = [])
    (d2 : DotDims ⟨2, ![B, R]⟩ ⟨2, ![R, C]⟩ ⟨2, ![B, C]⟩)
    (h2lc : d2.lhsContracting = [1]) (h2rc : d2.rhsContracting = [0])
    (h2ln : d2.lhsNonContracting = [0]) (h2rn : d2.rhsNonContracting = [1])
    (h2lb : d2.lhsBatch = []) (h2rb : d2.rhsBatch = [])
    (S : FVec Ideal ⟨2, ![B, C]⟩ .f32) (κ z : Ideal .f32)
    (W1 : FVec Ideal ⟨2, ![C, R]⟩ .f32) (W2 : FVec Ideal ⟨2, ![R, C]⟩ .f32) (r : Fin B) (c : Fin C) :
    logistic (matmul d2 none (maximumf (matmul d1 none (mulf S (broadcast ⟨2, ![B, C]⟩ κ)) W1 (constant ⟨2, ![B, R]⟩ .f32 0x00000000#32))
        (broadcast ⟨2, ![B, R]⟩ z)) W2 (constant ⟨2, ![B, C]⟩ .f32 0x00000000#32)) (ix2 r c)
      = Ideal.logistic (∑ j : Fin R, max (∑ c' : Fin C, (S (ix2 r c') * κ) * W1 (ix2 c' j)) z * W2 (ix2 j c)) := by
  show Ideal.logistic (matmul d2 none _ W2 (constant ⟨2, ![B, C]⟩ .f32 0x00000000#32) (ix2 r c)) = _
  rw [matmul_rc_apply d2 h2lc h2rc h2ln h2rn h2lb h2rb]
  refine congrArg Ideal.logistic (Finset.sum_congr rfl fun j _ => ?_)
  refine congrArg (· * W2 (ix2 j c)) ?_
  show max (matmul d1 none _ W1 (constant ⟨2, ![B, R]⟩ .f32 0x00000000#32) (ix2 r j)) z = _
  rw [matmul_rc_apply d1 h1lc h1rc h1ln h1rn h1lb h1rb]
  rfl

end Cert.Lib

end
-- ==== Proof.Spec.lean ====
/-
  What both programs compute, as one function of the three argument arrays.

  The input x has shape [128, 256, 28, 28]; viewed as [128, 256, 784] (sample, channel, position) every entry is scaled
  by its sample's gate of its channel (LibSqueezeExcite's `seNCH`), with the mean's factor the f32 word 0x3AA72F05 and the
  rectifier's floor the zero word, and the result is viewed as [128, 256, 28, 28] again. A program that exchanges the two
  trailing axes first, scales in the (sample, position, channel) layout and exchanges back computes the same array.
-/
import proofs.«145505_g2000206377233757_pallasbulk_214_2_alg».proof.Proof.LibSqueezeExcite

noncomputable section

namespace Cert.SE

open Idealize.ShloMosaic Cert.Lib

/-- The mean's factor: the f32 word both programs multiply the per-channel sums by. -/
abbrev κ : EReal := Ideal.ofBits .f32 0x3AA72F05#32
/-- The rectifier's floor: the zero word. -/
abbrev z : EReal := Ideal.ofBits .f32 0x00000000#32

abbrev X4 : Shape := ⟨4, ![128, 256, 28, 28]⟩
abbrev X3 : Shape := ⟨3, ![128, 256, 784]⟩
abbrev X3t : Shape := ⟨3, ![128, 784, 256]⟩

theorem c43 : X4.ShapeCasts X3 := by decide
theorem c34 : X3.ShapeCasts X4 := by decide
theorem t1 : X3.Transposes [0, 2, 1] X3t := by decide
theorem t2 : X3t.Transposes [0, 2, 1] X3 := by decide

/-- The result array: x viewed by (sample, channel, position), every entry scaled by its gate, viewed back. -/
def scaled (x : FVec Ideal X4 .f32) (w1 : FVec Ideal ⟨2, ![256, 16]⟩ .f32) (w2 : FVec Ideal ⟨2, ![16, 256]⟩ .f32) : FVec Ideal X4 .f32 :=
  shapeCast X4 (seNCH κ z (shapeCast X3 x c43) w1 w2) c34

/-- Scaling in the (sample, position, channel) layout between two exchanges of the trailing axes gives the same array. -/
theorem scaled_of_transposed (x : FVec Ideal X4 .f32) (w1 : FVec Ideal ⟨2, ![256, 16]⟩ .f32) (w2 : FVec Ideal ⟨2, ![16, 256]⟩ .f32) :
    shapeCast X4 (transpose X3 [0, 2, 1] (seNHC κ z (transpose X3t [0, 2, 1] (shapeCast X3 x c43) t1) w1 w2) t2) c34 = scaled x w1 w2 := by
  unfold scaled
  rw [transpose_seNHC_transpose]

end Cert.SE

end
-- ==== Proof.KPayload.lean ====
/-
  What the kernel's one store writes, entry by entry: for a block of 8 samples, entry (b, c, h) is the block's entry
  there times the gate of channel c of sample b, the gate computed from that sample's rows of the block alone.
-/
import proofs.«145505_g2000206377233757_pallasbulk_214_2_alg».proof.Proof.Gen.KernelIdeal.Skeleton
import proofs.«145505_g2000206377233757_pallasbulk_214_2_alg».proof.Proof.Spec

noncomputable section

namespace Cert.KernelIdeal.Pay

open Idealize.ShloMosaic Idealize.ShloMosaic.ValueIdx Cert.KernelIdeal Cert.KernelIdeal.Gen Cert.Lib

/-- The stored value at (b, c, h): the loaded block there, times the gate of channel c over sample b's entries. The
    sums along the positions, the two block products and the logistic are the gate's expression; the trailing unit axis
    and its layout along the positions read the gate of (b, c) at every h. -/
theorem pay_apply (x0 : Vec Ideal S8x256x784 .f32) (x1 : Vec Ideal S256x16 .f32) (x2 : Vec Ideal S16x256 .f32)
    (b : Fin 8) (c : Fin 256) (h : Fin 784) :
    k0_pay1 (F := Ideal) x0 x1 x2 (ix3 b c h)
      = x0 (ix3 b c h) * seGate SE.κ SE.z (fun c' h' => x0 (ix3 b c' h')) x1 x2 c := by
  unfold k0_pay1
  dsimp only
  show shapeCast S8x256x784 x0 _ (ix3 b c h) * broadcastTo S8x256x784 _ _ (ix3 b c h) = _
  refine congrArg₂ (· * ·) (congrFun (shapeCast_self x0 _) _) ?_
  refine (broadcastTo_ab1_abc_apply _ _ b c h).trans ?_
  refine (shapeCast_ab_ab1_apply _ _ b c 0).trans ?_
  refine (excite_apply _ rfl rfl rfl rfl rfl rfl _ rfl rfl rfl rfl rfl rfl _ _ _ _ _ b c).trans ?_
  unfold seGate
  refine congrArg Ideal.logistic (Finset.sum_congr rfl fun j _ => ?_)
  refine congrArg (· * x2 (ix2 j c)) ?_
  refine congrArg (max · SE.z) (Finset.sum_congr rfl fun c' _ => ?_)
  refine congrArg (fun s => s * SE.κ * x1 (ix2 c' j)) ?_
  refine (sum_axis2_apply _ _ _ _ _ b c').trans ?_
  rw [shapeCast_self]

end Cert.KernelIdeal.Pay

end
-- ==== Proof.KValue.lean ====
/-
  The kernel's result as a function of its arguments.

  Grid point t stages samples 8t .. 8t+7 of the input viewed as [128, 256, 784], and both weight arrays whole; it writes
  back block t of the output. By the stored value's entries (KPayload) the written block is block t of the whole-array
  scaling `seNCH` of the staged array: an entry's gate uses only its own sample's rows, which lie in the same block. The
  sixteen blocks cover the array, so after the region the output array IS that scaling; the view of the argument
  before the region and of the output after it are the two reshapes around it.
-/
import proofs.«145505_g2000206377233757_pallasbulk_214_2_alg».proof.Proof.Gen.KernelIdeal.Frame
import proofs.«145505_g2000206377233757_pallasbulk_214_2_alg».proof.Proof.KPayload
import Idealize.ShloMosaic.Lib.Pipeline.Value
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx Cert.Lib
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The three arrays the region reads, as it finds them, at their literal types. -/
abbrev xarr (c : Dev nD) : Vec Ideal S128x256x784 .f32 := V m c main_v0
abbrev w1arr (c : Dev nD) : Vec Ideal S256x16 .f32 := V m c main_arg1
abbrev w2arr (c : Dev nD) : Vec Ideal S16x256 .f32 := V m c main_arg2

/-- What the output array holds after the region: the staged input scaled entry by entry. -/
abbrev G (c : Dev nD) : Vec Ideal S128x256x784 .f32 := seNCH SE.κ SE.z (xarr m c) (w1arr m c) (w2arr m c)

/-- The printed index maps over the sixteen points: input and output blocks move together along the samples and sit at
    zero on the other axes; the weights' one block is at zero. -/
theorem idx_facts : ∀ t : Fin cfg0.N,
    win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The weights' staged blocks are the arrays. -/
theorem w1blk (c : Dev nD) (t : Fin cfg0.N) : (iblk m c 1 t : Vec Ideal S256x16 .f32) = w1arr m c := by
  obtain ⟨-, -, -, -, -, -, e10, e11, -, -⟩ := idx_facts t
  funext k
  show V m c main_arg1 (((cfg0.win 1).blk t).view.emb k) = V m c main_arg1 k
  refine congrArg (V m c main_arg1) (funext fun a => Fin.ext ?_)
  match a with
  | ⟨0, _⟩ => show win0_1.index t (0 : Fin 2) * 256 + 1 * (k 0).val = (k 0).val; omega
  | ⟨1, _⟩ => show win0_1.index t (1 : Fin 2) * 16 + 1 * (k 1).val = (k 1).val; omega

theorem w2blk (c : Dev nD) (t : Fin cfg0.N) : (iblk m c 2 t : Vec Ideal S16x256 .f32) = w2arr m c := by
  obtain ⟨-, -, -, -, -, -, -, -, e20, e21⟩ := idx_facts t
  funext k
  show V m c main_arg2 (((cfg0.win 2).blk t).view.emb k) = V m c main_arg2 k
  refine congrArg (V m c main_arg2) (funext fun a => Fin.ext ?_)
  match a with
  | ⟨0, _⟩ => show win0_2.index t (0 : Fin 2) * 16 + 1 * (k 0).val = (k 0).val; omega
  | ⟨1, _⟩ => show win0_2.index t (1 : Fin 2) * 256 + 1 * (k 1).val = (k 1).val; omega

/-- The sample that row b of point t's block holds: 8t + b. -/
def samp (t : Fin cfg0.N) (b : Fin 8) : Fin 128 :=
  ⟨t.val * 8 + b.val, by have h1 : t.val < grid0.N := t.isLt; rw [N_0] at h1; have := b.isLt; omega⟩

theorem samp_val (t : Fin cfg0.N) (b : Fin 8) : (samp t b).val = t.val * 8 + b.val := rfl

/-- Entry (b, ch, h) of the input's staged block at point t is the array's entry (8t + b, ch, h). -/
theorem xblk (c : Dev nD) (t : Fin cfg0.N) (b : Fin 8) (ch : Fin 256) (h : Fin 784) :
    (iblk m c 0 t : Vec Ideal S8x256x784 .f32) (ix3 b ch h) = xarr m c (ix3 (samp t b) ch h) := by
  obtain ⟨e00, e01, e02, -, -, -, -, -, -, -⟩ := idx_facts t
  show V m c main_v0 (((cfg0.win 0).blk t).view.emb (ix3 b ch h)) = V m c main_v0 _
  refine congrArg (V m c main_v0) (funext fun a => Fin.ext ?_)
  match a with
  | ⟨0, _⟩ => show win0_0.index t (0 : Fin 3) * 8 + 1 * b.val = (samp t b).val; rw [samp_val]; omega
  | ⟨1, _⟩ => show win0_0.index t (1 : Fin 3) * 256 + 1 * ch.val = ch.val; omega
  | ⟨2, _⟩ => show win0_0.index t (2 : Fin 3) * 784 + 1 * h.val = h.val; omega

/-- The stored value at entry (b, ch, h) of point t's block is the scaled array's entry (8t + b, ch, h): the block's
    entries of sample b are the array's of sample 8t + b, so the two gates are one. -/
theorem pay_blk (c : Dev nD) (t : Fin cfg0.N) (b : Fin 8) (ch : Fin 256) (h : Fin 784) :
    k0_pay1 (F := Ideal) (iblk m c 0 t) (iblk m c 1 t) (iblk m c 2 t) (ix3 b ch h) = G m c (ix3 (samp t b) ch h) := by
  refine (Pay.pay_apply (iblk m c 0 t) (iblk m c 1 t) (iblk m c 2 t) b ch h).trans ?_
  show _ = xarr m c (ix3 (samp t b) ch h)
      * seGate SE.κ SE.z (fun c' h' => xarr m c (ix3 (samp t b) c' h')) (w1arr m c) (w2arr m c) ch
  have eX : (fun (c' : Fin 256) (h' : Fin 784) => (iblk m c 0 t : Vec Ideal S8x256x784 .f32) (ix3 b c' h'))
      = fun c' h' => xarr m c (ix3 (samp t b) c' h') := funext fun c' => funext fun h' => xblk m c t b c' h'
  refine congrArg₂ (· * ·) (xblk m c t b ch h) ?_
  exact (congrArg (fun X => seGate SE.κ SE.z X (iblk m c 1 t : Vec Ideal S256x16 .f32) (iblk m c 2 t : Vec Ideal S16x256 .f32) ch) eX).trans
    ((congrArg (fun W => seGate SE.κ SE.z (fun c' h' => xarr m c (ix3 (samp t b) c' h')) W (iblk m c 2 t : Vec Ideal S16x256 .f32) ch) (w1blk m c t)).trans
      (congrArg (fun W => seGate SE.κ SE.z (fun c' h' => xarr m c (ix3 (samp t b) c' h')) (w1arr m c) W ch) (w2blk m c t)))

/-- WHAT POINT t WRITES BACK is block t of the scaled array. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz3]
  simp only [View.ld_unit_zero (S := S8x256x784) hz3, View.ld_unit_zero (S := S256x16) hz2, View.ld_unit_zero (S := S16x256) hz2]
  obtain ⟨-, -, -, e30, e31, e32, -, -, -, -⟩ := idx_facts t
  funext y
  obtain ⟨b, ch, h, rfl⟩ : ∃ (b : Fin 8) (ch : Fin 256) (h : Fin 784), y = ix3 b ch h := ⟨y 0, y 1, y 2, eq_ix3 y⟩
  show k0_pay1 (F := Ideal) (iblk m c 0 t) (iblk m c 1 t) (iblk m c 2 t) (ix3 b ch h) = G m c (((cfg0.win 3).blk t).view.emb (ix3 b ch h))
  refine (pay_blk m c t b ch h).trans (congrArg (G m c) (funext fun a => Fin.ext ?_))
  match a with
  | ⟨0, _⟩ => show (samp t b).val = win0_3.index t (0 : Fin 3) * 8 + 1 * b.val; rw [samp_val]; omega
  | ⟨1, _⟩ => show ch.val = win0_3.index t (1 : Fin 3) * 256 + 1 * ch.val; omega
  | ⟨2, _⟩ => show h.val = win0_3.index t (2 : Fin 3) * 784 + 1 * h.val; omega

/-- An index of the output array is in point t's block iff each coordinate is in the block's range on its axis. -/
theorem mem_blk (t : Fin cfg0.N) (i : S128x256x784.Idx) :
    i ∈ ((cfg0.win 3).blk t).view.set ↔ ∀ a : Fin 3, win0_3.index t a * S8x256x784.size a ≤ (i a).val ∧ (i a).val < win0_3.index t a * S8x256x784.size a + S8x256x784.size a := by
  show i ∈ ((View.whole main_v1).slice (win0_3.rect t)).set ↔ _
  rw [View.set_slice_whole, Rect.mem_set_unit]
  exact Iff.rfl

/-- Every index of the output array is in the block of the point its sample belongs to: sample n is written at point n / 8. -/
theorem cover (i : S128x256x784.Idx) : ∃ t : Fin cfg0.N, (cfg0.win 3).flush t = true ∧ i ∈ ((cfg0.win 3).blk t).view.set := by
  have hi0 : (i 0).val < 128 := (i 0).isLt
  have hi1 : (i 1).val < 256 := (i 1).isLt
  have hi2 : (i 2).val < 784 := (i 2).isLt
  obtain ⟨t, ht⟩ : ∃ t : Fin cfg0.N, t.val = (i 0).val / 8 := ⟨⟨(i 0).val / 8, by show _ < grid0.N; rw [N_0]; omega⟩, rfl⟩
  obtain ⟨-, -, -, e30, e31, e32, -, -, -, -⟩ := idx_facts t
  refine ⟨t, flush0_3 t, ?_⟩
  rw [mem_blk]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 256 ≤ (i 1).val ∧ (i 1).val < win0_3.index t (1 : Fin 3) * 256 + 256; omega
  | ⟨2, _⟩ => show win0_3.index t (2 : Fin 3) * 784 ≤ (i 2).val ∧ (i 2).val < win0_3.index t (2 : Fin 3) * 784 + 784; omega

/-- THE OUTPUT ARRAY after the region is the scaled array. -/
theorem final (c : Dev nD) : (dats m 0 c).arrAt 3 cfg0.N = G m c :=
  (dats m 0 c).arrAt_eq_of_cover 3 (G m c) (fun t _ => flushed_eq m c t) cover

/-- The array the region reads is the argument viewed as [128, 256, 784]. -/
theorem xarr_eq (c : Dev nD) :
    xarr m c = shapeCast S128x256x784 (m ((c : Thread nD τ).loc main_arg0)) SE.c43 := by
  show StableHlo.after hostOps0 (fun b => m (c, b)) (Proc.devRef .tc main_v0) = _
  after_results
  rfl

theorem w1arr_eq (c : Dev nD) : w1arr m c = m ((c : Thread nD τ).loc main_arg1) := V_main_arg1 m c
theorem w2arr_eq (c : Dev nD) : w2arr m c = m ((c : Thread nD τ).loc main_arg2) := V_main_arg2 m c

/-- THE RESULT: what the line after the region leaves in the result buffer is the scaled array of the arguments. -/
theorem result (c : Dev nD) :
    Pipeline.afterTail₀ cfgs (dats m) 0 (V0 m) [hostOps1] c main_v2
      = SE.scaled (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  have hw : Pipeline.withArrays spec0 c (V0 m c) (fun w => (dats m 0 c).arrAt w cfg0.N) (Proc.devRef .tc main_v1) = G m c :=
    (Pipeline.withArrays_arr spec0 launch0.win.arr_inj c _ _ 3).trans (final m c)
  have hG : G m c = seNCH SE.κ SE.z (shapeCast S128x256x784 (m ((c : Thread nD τ).loc main_arg0)) SE.c43)
      (m ((c : Thread nD τ).loc main_arg1)) (m ((c : Thread nD τ).loc main_arg2)) := by
    show seNCH SE.κ SE.z (xarr m c) (w1arr m c) (w2arr m c) = _
    rw [xarr_eq, w1arr_eq, w2arr_eq]
  exact congrArg (fun A : Vec Ideal S128x256x784 .f32 => shapeCast S128x256x28x28 A SE.c34) (hw.trans hG)

/-- THE RUN: every weakly fair execution ends with the result buffer at the scaled array of the arguments, and the
    arguments as they were. -/
theorem run : θ_run defs (onTc (τ := τ) (main (F := Ideal))) ⟨m, fun _ => 0, ρ⟩ fun r => ∀ c : Dev nD,
      r.2.mem ((c.tc : Thread nD τ).loc main_v2)
        = SE.scaled (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v2 (Pipeline.mem_restRefs_of main_v2 (by decide) (by decide))).trans (result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Val

end
-- ==== Proof.RPayload.lean ====
/-
  What the reference's one store writes, entry by entry: for a block of 4 samples in the (sample, position, channel)
  layout, entry (b, h, c) is the block's entry there times the gate of channel c of sample b, the gate computed from that
  sample's rows of the block alone. The block is loaded twice, once for the sums and once for the product.
-/
import proofs.«145505_g2000206377233757_pallasbulk_214_2_alg».proof.Proof.Gen.ReferenceIdeal.Skeleton
import proofs.«145505_g2000206377233757_pallasbulk_214_2_alg».proof.Proof.Spec

noncomputable section

namespace Cert.ReferenceIdeal.Pay

open Idealize.ShloMosaic Idealize.ShloMosaic.ValueIdx Cert.ReferenceIdeal Cert.ReferenceIdeal.Gen Cert.Lib

/-- The stored value at (b, h, c): the second load there, times the gate of channel c over the first load's entries of
    sample b. The sums run along the positions (the middle axis); the gate of (b, c) gets a middle unit axis and is laid
    out along the positions. -/
theorem pay_apply (x0 : Vec Ideal S4x784x256 .f32) (x1 : Vec Ideal S256x16 .f32) (x2 : Vec Ideal S16x256 .f32)
    (x3 : Vec Ideal S4x784x256 .f32) (b : Fin 4) (h : Fin 784) (c : Fin 256) :
    k0_pay1 (F := Ideal) x0 x1 x2 x3 (ix3 b h c)
      = x3 (ix3 b h c) * seGate SE.κ SE.z (fun c' h' => x0 (ix3 b h' c')) x1 x2 c := by
  unfold k0_pay1
  dsimp only
  show shapeCast S4x784x256 x3 _ (ix3 b h c) * broadcastTo S4x784x256 _ _ (ix3 b h c) = _
  refine congrArg₂ (· * ·) (congrFun (shapeCast_self x3 _) _) ?_
  refine (broadcastTo_a1c_abc_apply _ _ b h c).trans ?_
  refine (shapeCast_ab_a1b_apply _ _ b 0 c).trans ?_
  refine (excite_apply _ rfl rfl rfl rfl rfl rfl _ rfl rfl rfl rfl rfl rfl _ _ _ _ _ b c).trans ?_
  unfold seGate
  refine congrArg Ideal.logistic (Finset.sum_congr rfl fun j _ => ?_)
  refine congrArg (· * x2 (ix2 j c)) ?_
  refine congrArg (max · SE.z) (Finset.sum_congr rfl fun c' _ => ?_)
  refine congrArg (fun s => s * SE.κ * x1 (ix2 c' j)) ?_
  refine (sum_axis1_apply _ _ _ _ _ b c').trans ?_
  rw [shapeCast_self]

end Cert.ReferenceIdeal.Pay

end
-- ==== Proof.RValue.lean ====
/-
  The reference's result as a function of its arguments.

  The argument, viewed as [128, 256, 784], has its two trailing axes exchanged before the region. Grid point t stages
  samples 4t .. 4t+3 of that [128, 784, 256] array and both weight arrays whole, and writes back block t of the output.
  By the stored value's entries (RPayload) the written block is block t of the whole-array scaling `seNHC` of the staged
  array: an entry's gate uses only its own sample's rows, which lie in the same block. The thirty-two blocks cover the
  array, so after the region the output array IS that scaling; the lines after the region exchange the trailing axes
  back and view the result as [128, 256, 28, 28], which is the scaling in the channels-before-positions layout (Spec).
-/
import proofs.«145505_g2000206377233757_pallasbulk_214_2_alg».proof.Proof.Gen.ReferenceIdeal.Frame
import proofs.«145505_g2000206377233757_pallasbulk_214_2_alg».proof.Proof.RPayload
import Idealize.ShloMosaic.Lib.Pipeline.Value
import Idealize.ShloMosaic.Lib.StableHlo.Run

set_option maxRecDepth 16384

noncomputable section

namespace Cert.ReferenceIdeal.Val

open Cert.ReferenceIdeal Cert.ReferenceIdeal.Gen Idealize.ShloMosaic Idealize.ShloMosaic.TcCoe Idealize.SL.Sem
open Idealize.ShloMosaic.ValueIdx Cert.Lib
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The three arrays the region reads, as it finds them, at their literal types. -/
abbrev xarr (c : Dev nD) : Vec Ideal S128x784x256 .f32 := V m c main_v1
abbrev w1arr (c : Dev nD) : Vec Ideal S256x16 .f32 := V m c main_arg1
abbrev w2arr (c : Dev nD) : Vec Ideal S16x256 .f32 := V m c main_arg2

/-- What the output array holds after the region: the staged input scaled entry by entry. -/
abbrev G (c : Dev nD) : Vec Ideal S128x784x256 .f32 := seNHC SE.κ SE.z (xarr m c) (w1arr m c) (w2arr m c)

/-- The printed index maps over the thirty-two points: input and output blocks move together along the samples and sit
    at zero on the other axes; the weights' one block is at zero. -/
theorem idx_facts : ∀ t : Fin cfg0.N,
    win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The weights' staged blocks are the arrays. -/
theorem w1blk (c : Dev nD) (t : Fin cfg0.N) : (iblk m c 1 t : Vec Ideal S256x16 .f32) = w1arr m c := by
  obtain ⟨-, -, -, -, -, -, e10, e11, -, -⟩ := idx_facts t
  funext k
  show V m c main_arg1 (((cfg0.win 1).blk t).view.emb k) = V m c main_arg1 k
  refine congrArg (V m c main_arg1) (funext fun a => Fin.ext ?_)
  match a with
  | ⟨0, _⟩ => show win0_1.index t (0 : Fin 2) * 256 + 1 * (k 0).val = (k 0).val; omega
  | ⟨1, _⟩ => show win0_1.index t (1 : Fin 2) * 16 + 1 * (k 1).val = (k 1).val; omega

theorem w2blk (c : Dev nD) (t : Fin cfg0.N) : (iblk m c 2 t : Vec Ideal S16x256 .f32) = w2arr m c := by
  obtain ⟨-, -, -, -, -, -, -, -, e20, e21⟩ := idx_facts t
  funext k
  show V m c main_arg2 (((cfg0.win 2).blk t).view.emb k) = V m c main_arg2 k
  refine congrArg (V m c main_arg2) (funext fun a => Fin.ext ?_)
  match a with
  | ⟨0, _⟩ => show win0_2.index t (0 : Fin 2) * 16 + 1 * (k 0).val = (k 0).val; omega
  | ⟨1, _⟩ => show win0_2.index t (1 : Fin 2) * 256 + 1 * (k 1).val = (k 1).val; omega

/-- The sample that row b of point t's block holds: 4t + b. -/
def samp (t : Fin cfg0.N) (b : Fin 4) : Fin 128 :=
  ⟨t.val * 4 + b.val, by have h1 : t.val < grid0.N := t.isLt; rw [N_0] at h1; have := b.isLt; omega⟩

theorem samp_val (t : Fin cfg0.N) (b : Fin 4) : (samp t b).val = t.val * 4 + b.val := rfl

/-- Entry (b, h, ch) of the input's staged block at point t is the array's entry (4t + b, h, ch). -/
theorem xblk (c : Dev nD) (t : Fin cfg0.N) (b : Fin 4) (h : Fin 784) (ch : Fin 256) :
    (iblk m c 0 t : Vec Ideal S4x784x256 .f32) (ix3 b h ch) = xarr m c (ix3 (samp t b) h ch) := by
  obtain ⟨e00, e01, e02, -, -, -, -, -, -, -⟩ := idx_facts t
  show V m c main_v1 (((cfg0.win 0).blk t).view.emb (ix3 b h ch)) = V m c main_v1 _
  refine congrArg (V m c main_v1) (funext fun a => Fin.ext ?_)
  match a with
  | ⟨0, _⟩ => show win0_0.index t (0 : Fin 3) * 4 + 1 * b.val = (samp t b).val; rw [samp_val]; omega
  | ⟨1, _⟩ => show win0_0.index t (1 : Fin 3) * 784 + 1 * h.val = h.val; omega
  | ⟨2, _⟩ => show win0_0.index t (2 : Fin 3) * 256 + 1 * ch.val = ch.val; omega

/-- The stored value at entry (b, h, ch) of point t's block is the scaled array's entry (4t + b, h, ch): the block's
    entries of sample b are the array's of sample 4t + b, so the two gates are one. -/
theorem pay_blk (c : Dev nD) (t : Fin cfg0.N) (b : Fin 4) (h : Fin 784) (ch : Fin 256) :
    k0_pay1 (F := Ideal) (iblk m c 0 t) (iblk m c 1 t) (iblk m c 2 t) (iblk m c 0 t) (ix3 b h ch) = G m c (ix3 (samp t b) h ch) := by
  refine (Pay.pay_apply (iblk m c 0 t) (iblk m c 1 t) (iblk m c 2 t) (iblk m c 0 t) b h ch).trans ?_
  show _ = xarr m c (ix3 (samp t b) h ch)
      * seGate SE.κ SE.z (fun c' h' => xarr m c (ix3 (samp t b) h' c')) (w1arr m c) (w2arr m c) ch
  have eX : (fun (c' : Fin 256) (h' : Fin 784) => (iblk m c 0 t : Vec Ideal S4x784x256 .f32) (ix3 b h' c'))
      = fun c' h' => xarr m c (ix3 (samp t b) h' c') := funext fun c' => funext fun h' => xblk m c t b h' c'
  refine congrArg₂ (· * ·) (xblk m c t b h ch) ?_
  exact (congrArg (fun X => seGate SE.κ SE.z X (iblk m c 1 t : Vec Ideal S256x16 .f32) (iblk m c 2 t : Vec Ideal S16x256 .f32) ch) eX).trans
    ((congrArg (fun W => seGate SE.κ SE.z (fun c' h' => xarr m c (ix3 (samp t b) h' c')) W (iblk m c 2 t : Vec Ideal S16x256 .f32) ch) (w1blk m c t)).trans
      (congrArg (fun W => seGate SE.κ SE.z (fun c' h' => xarr m c (ix3 (samp t b) h' c')) (w1arr m c) W ch) (w2blk m c t)))

/-- WHAT POINT t WRITES BACK is block t of the scaled array. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz3]
  simp only [View.ld_unit_zero (S := S4x784x256) hz3, View.ld_unit_zero (S := S256x16) hz2, View.ld_unit_zero (S := S16x256) hz2]
  obtain ⟨-, -, -, e30, e31, e32, -, -, -, -⟩ := idx_facts t
  funext y
  obtain ⟨b, h, ch, rfl⟩ : ∃ (b : Fin 4) (h : Fin 784) (ch : Fin 256), y = ix3 b h ch := ⟨y 0, y 1, y 2, eq_ix3 y⟩
  show k0_pay1 (F := Ideal) (iblk m c 0 t) (iblk m c 1 t) (iblk m c 2 t) (iblk m c 0 t) (ix3 b h ch) = G m c (((cfg0.win 3).blk t).view.emb (ix3 b h ch))
  refine (pay_blk m c t b h ch).trans (congrArg (G m c) (funext fun a => Fin.ext ?_))
  match a with
  | ⟨0, _⟩ => show (samp t b).val = win0_3.index t (0 : Fin 3) * 4 + 1 * b.val; rw [samp_val]; omega
  | ⟨1, _⟩ => show h.val = win0_3.index t (1 : Fin 3) * 784 + 1 * h.val; omega
  | ⟨2, _⟩ => show ch.val = win0_3.index t (2 : Fin 3) * 256 + 1 * ch.val; omega

/-- An index of the output array is in point t's block iff each coordinate is in the block's range on its axis. -/
theorem mem_blk (t : Fin cfg0.N) (i : S128x784x256.Idx) :
    i ∈ ((cfg0.win 3).blk t).view.set ↔ ∀ a : Fin 3, win0_3.index t a * S4x784x256.size a ≤ (i a).val ∧ (i a).val < win0_3.index t a * S4x784x256.size a + S4x784x256.size a := by
  show i ∈ ((View.whole main_v2).slice (win0_3.rect t)).set ↔ _
  rw [View.set_slice_whole, Rect.mem_set_unit]
  exact Iff.rfl

/-- Every index of the output array is in the block of the point its sample belongs to: sample n is written at point n / 4. -/
theorem cover (i : S128x784x256.Idx) : ∃ t : Fin cfg0.N, (cfg0.win 3).flush t = true ∧ i ∈ ((cfg0.win 3).blk t).view.set := by
  have hi0 : (i 0).val < 128 := (i 0).isLt
  have hi1 : (i 1).val < 784 := (i 1).isLt
  have hi2 : (i 2).val < 256 := (i 2).isLt
  obtain ⟨t, ht⟩ : ∃ t : Fin cfg0.N, t.val = (i 0).val / 4 := ⟨⟨(i 0).val / 4, by show _ < grid0.N; rw [N_0]; omega⟩, rfl⟩
  obtain ⟨-, -, -, e30, e31, e32, -, -, -, -⟩ := idx_facts t
  refine ⟨t, flush0_3 t, ?_⟩
  rw [mem_blk]
  intro a
  match a with
  | ⟨0, _⟩ => show win0_3.index t (0 : Fin 3) * 4 ≤ (i 0).val ∧ (i 0).val < win0_3.index t (0 : Fin 3) * 4 + 4; omega
  | ⟨1, _⟩ => show win0_3.index t (1 : Fin 3) * 784 ≤ (i 1).val ∧ (i 1).val < win0_3.index t (1 : Fin 3) * 784 + 784; omega
  | ⟨2, _⟩ => show win0_3.index t (2 : Fin 3) * 256 ≤ (i 2).val ∧ (i 2).val < win0_3.index t (2 : Fin 3) * 256 + 256; omega

/-- THE OUTPUT ARRAY after the region is the scaled array. -/
theorem final (c : Dev nD) : (dats m 0 c).arrAt 3 cfg0.N = G m c :=
  (dats m 0 c).arrAt_eq_of_cover 3 (G m c) (fun t _ => flushed_eq m c t) cover

/-- The array the region reads is the argument viewed as [128, 256, 784] with its trailing axes exchanged. -/
theorem xarr_eq (c : Dev nD) :
    xarr m c = transpose S128x784x256 [0, 2, 1] (shapeCast S128x256x784 (m ((c : Thread nD τ).loc main_arg0)) SE.c43) SE.t1 := by
  show StableHlo.after hostOps0 (fun b => m (c, b)) (Proc.devRef .tc main_v1) = _
  after_results
  rfl

theorem w1arr_eq (c : Dev nD) : w1arr m c = m ((c : Thread nD τ).loc main_arg1) := V_main_arg1 m c
theorem w2arr_eq (c : Dev nD) : w2arr m c = m ((c : Thread nD τ).loc main_arg2) := V_main_arg2 m c

/-- THE RESULT: what the lines after the region leave in the result buffer is the scaled array of the arguments. -/
theorem result (c : Dev nD) :
    Pipeline.afterTail₀ cfgs (dats m) 0 (V0 m) [hostOps1] c main_v4
      = SE.scaled (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have hw : Pipeline.withArrays spec0 c (V0 m c) (fun w => (dats m 0 c).arrAt w cfg0.N) (Proc.devRef .tc main_v2) = G m c :=
    (Pipeline.withArrays_arr spec0 launch0.win.arr_inj c _ _ 3).trans (final m c)
  have hG : G m c = seNHC SE.κ SE.z (transpose S128x784x256 [0, 2, 1] (shapeCast S128x256x784 (m ((c : Thread nD τ).loc main_arg0)) SE.c43) SE.t1)
      (m ((c : Thread nD τ).loc main_arg1)) (m ((c : Thread nD τ).loc main_arg2)) := by
    show seNHC SE.κ SE.z (xarr m c) (w1arr m c) (w2arr m c) = _
    rw [xarr_eq, w1arr_eq, w2arr_eq]
  exact (congrArg (fun A : Vec Ideal S128x784x256 .f32 => shapeCast S128x256x28x28 (transpose S128x256x784 [0, 2, 1] A SE.t2) SE.c34) (hw.trans hG)).trans
    (SE.scaled_of_transposed _ _ _)

/-- THE RUN: every weakly fair execution ends with the result buffer at the scaled array of the arguments, and the
    arguments as they were. -/
theorem run : θ_run defs (onTc (τ := τ) (main (F := Ideal))) ⟨m, fun _ => 0, ρ⟩ fun r => ∀ c : Dev nD,
      r.2.mem ((c.tc : Thread nD τ).loc main_v4)
        = SE.scaled (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v4 (Pipeline.mem_restRefs_of main_v4 (by decide) (by decide))).trans (result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ReferenceIdeal.Val

end
-- ==== Proof.lean ====
/-
  A squeeze-and-excitation block, computed two ways, is one function of its arguments over the extended reals.

  For an input x of shape [128, 256, 28, 28] and weights w1 [256, 16], w2 [16, 256], both programs return x with every
  entry (n, c, ·, ·) multiplied by the gate of channel c of sample n,
      logistic ( Σ_j  max ( Σ_c' ((Σ_positions x (n, c', ·)) · κ) · w1 (c', j),  0 ) · w2 (j, c) ),
  κ the same f32 word in both. The kernel works on x viewed as [128, 256, 784], eight samples a grid point, summing along
  the last axis; the reference exchanges the two trailing axes first, works on [128, 784, 256], four samples a grid point,
  summing along the middle axis, and exchanges back. A sample's gate reads that sample only, so the tiling does not
  enter; the sums run over the same 784 positions either way, so the layout does not enter either (Spec,
  LibSqueezeExcite). No law used needs the inputs finite: the precondition is never opened.
  Each program's run, terminating and faultless with the arguments unchanged, is the generated frame's; KValue and RValue
  read the result buffer off it. The idealization rewrote nothing, so there is nothing to preserve.
-/
import proofs.«145505_g2000206377233757_pallasbulk_214_2_alg».proof.Defs
import proofs.«145505_g2000206377233757_pallasbulk_214_2_alg».proof.Proof.Gen.Kernel
import proofs.«145505_g2000206377233757_pallasbulk_214_2_alg».proof.Proof.Gen.Kernel.Skeleton
import proofs.«145505_g2000206377233757_pallasbulk_214_2_alg».proof.Proof.Gen.Kernel.Launch
import proofs.«145505_g2000206377233757_pallasbulk_214_2_alg».proof.Proof.Gen.Kernel.Points
import proofs.«145505_g2000206377233757_pallasbulk_214_2_alg».proof.Proof.Gen.Kernel.Frame
import proofs.«145505_g2000206377233757_pallasbulk_214_2_alg».proof.Proof.Gen.KernelIdeal
import proofs.«145505_g2000206377233757_pallasbulk_214_2_alg».proof.Proof.Gen.KernelIdeal.Skeleton
import proofs.«145505_g2000206377233757_pallasbulk_214_2_alg».proof.Proof.Gen.KernelIdeal.Launch
import proofs.«145505_g2000206377233757_pallasbulk_214_2_alg».proof.Proof.Gen.KernelIdeal.Points
import proofs.«145505_g2000206377233757_pallasbulk_214_2_alg».proof.Proof.Gen.KernelIdeal.Frame
import proofs.«145505_g2000206377233757_pallasbulk_214_2_alg».proof.Proof.Gen.ReferenceIdeal
import proofs.«145505_g2000206377233757_pallasbulk_214_2_alg».proof.Proof.Gen.ReferenceIdeal.Skeleton
import proofs.«145505_g2000206377233757_pallasbulk_214_2_alg».proof.Proof.Gen.ReferenceIdeal.Launch
import proofs.«145505_g2000206377233757_pallasbulk_214_2_alg».proof.Proof.Gen.ReferenceIdeal.Points
import proofs.«145505_g2000206377233757_pallasbulk_214_2_alg».proof.Proof.Gen.ReferenceIdeal.Frame
import proofs.«145505_g2000206377233757_pallasbulk_214_2_alg».proof.Proof.Gen.Pre_finite_inputs
import proofs.«145505_g2000206377233757_pallasbulk_214_2_alg».proof.Proof.KValue
import proofs.«145505_g2000206377233757_pallasbulk_214_2_alg».proof.Proof.RValue
import Idealize.ShloMosaic.Adequacy
import Idealize.ShloMosaic.Init

noncomputable section

namespace Cert.Proof

open Idealize.ShloMosaic Idealize.SL.Sem

/-- The word-level kernel terminates without a fault and leaves its arguments as they were. -/
theorem frame_k : Cert.frame_Kernel := fun m ρ _ => Cert.Kernel.Gen.frame m ρ

/-- So does the kernel read over the extended reals, -/
theorem frame_ki : Cert.frame_KernelIdeal := fun m ρ _ => Cert.KernelIdeal.Gen.frame m ρ

/-- and so does the reference. -/
theorem frame_ri : Cert.frame_ReferenceIdeal := fun m ρ _ => Cert.ReferenceIdeal.Gen.frame m ρ

/-- The idealization rewrote no operation. -/
theorem preserves : Cert.preserves_Kernel_KernelIdeal := trivial

/-- From memories that agree on x, w1 and w2, both programs end with the result buffer at the scaled array of those
    arguments: the kernel's run and the reference's run state it with the same function, so rewriting the reference's
    arguments to the kernel's closes the equation. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Val.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
